-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_arg7 : FVec F S128x16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x16 .f32) (main_arg6 : FVec F S16 .f32) (main_arg7 : FVec F S128x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x16 : Shape := ⟨2, ![100000, 16]⟩
abbrev S5000x16 : Shape := ⟨2, ![5000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x16, .f32⟩
  | .local _ .vmem, ⟨14, _⟩ => ⟨S16, .f32⟩
  | .local _ .vmem, ⟨15, _⟩ => ⟨S128x16, .f32⟩
  | .local _ .vmem, ⟨16, _⟩ => ⟨S5000x16, .f32⟩
  | .local _ .vmem, ⟨17, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x16.size a ≤ S128x16.size a
  hwx1_4 : ∀ i : grid1.Coords, EltTy.bits .f32 = 32 ∨ (Rect.block (s := S128x16) S128x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x16.size a ≤ S100000x16.size a
  hwx1_5 : ∀ i : grid1.Coords, EltTy.bits .f32 = 32 ∨ (Rect.block (s := S100000x16) S5000x16.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .i1⟩
  | .hbm, ⟨46, _⟩ => ⟨S_, .f32⟩
  | .hbm, ⟨47, _⟩ => ⟨S100000x128, .f32⟩
  | .hbm, ⟨48, _⟩ => ⟨S100000x128, .i1⟩
  | .hbm, ⟨49, _⟩ => ⟨S_, .f32⟩
  | .hbm, ⟨50, _⟩ => ⟨S_, .f32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x16, .f32⟩
  | .hbm, ⟨84, _⟩ => ⟨S1x16, .f32⟩
  | .hbm, ⟨85, _⟩ => ⟨S100000x16, .f32⟩
  | .hbm, ⟨86, _⟩ => ⟨S100000x16, .f32⟩
  | .hbm, ⟨87, _⟩ => ⟨S100000x16, .f32⟩
  | .hbm, ⟨88, _⟩ => ⟨S100000x16, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x16, .f32⟩
  | .hbm, ⟨96, _⟩ => ⟨S100000x16, .f32⟩
  | .hbm, ⟨97, _⟩ => ⟨S100000x16, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x16, .f32⟩
  | .hbm, ⟨103, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_cst_1 : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_v4 : Ref sig .tc := ⟨.hbm, 52, rfl⟩
abbrev main_call0_v5 : Ref sig .tc := ⟨.hbm, 53, rfl⟩
abbrev main_call0_cst_2 : Ref sig .tc := ⟨.hbm, 54, rfl⟩
abbrev main_call0_v6 : Ref sig .tc := ⟨.hbm, 55, rfl⟩
abbrev main_call0_v7 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v55 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Spec.lean ====
/-
  The two layers of the graph network, stated once, index by index, over the extended reals.

  A layer's pre-activation at row r and column q is the sum over k of the aggregated features a (r, k) times the
  neighbour weights Wl (k, q), plus the sum over k of the node's own features x (r, k) times the root weights
  Wr (k, q), plus the bias b (q).  The first layer applies the exponential linear unit to it; the second layer
  subtracts from every entry of a row the row's maximum and then the logarithm of the row's sum of exponentials
  (the logarithm of the softmax).  Every entry of a layer's result depends on one row of a and of x only.
-/
import Idealize.ShloMosaic.Lib.ValueIdx
import Idealize.ShloMosaic.PureOps.Ideal.Laws

noncomputable section

namespace Cert.Sage

open Idealize.ShloMosaic Idealize.ShloMosaic.ValueIdx

/-- A two-axis array of extended reals. -/
abbrev Arr (n k : Nat) : Type := (⟨2, ![n, k]⟩ : Shape).Idx → EReal
/-- A one-axis array of extended reals. -/
abbrev Row (k : Nat) : Type := (⟨1, ![k]⟩ : Shape).Idx → EReal

/-- The value of the zero word. -/
def zeroW : EReal := Ideal.ofBits .f32 0x00000000#32
/-- The value of the word of the float one. -/
def oneW : EReal := Ideal.ofBits .f32 0x3F800000#32
/-- The value of the word of the float minus infinity. -/
def negInfW : EReal := Ideal.ofBits .f32 0xFF800000#32

variable {N K C : Nat}

/-- The pre-activation: a (r, ·) · Wl (·, q) + x (r, ·) · Wr (·, q) + b (q). -/
def lin (a x : Arr N K) (Wl Wr : Arr K C) (b : Row C) : Arr N C :=
  fun j => ((∑ k : Fin K, a (ix2 (j 0) k) * Wl (ix2 k (j 1))) + (∑ k : Fin K, x (ix2 (j 0) k) * Wr (ix2 k (j 1))))
    + b (ix1 (j 1))

/-- The exponential linear unit: t where t exceeds the value of the zero word, exp t minus the value of the one word elsewhere. -/
def elu1 (t : EReal) : EReal := Scalar.select (Ideal.cmp .ogt t zeroW) t (Ideal.exp t - oneW)

/-- The first layer. -/
def layer1 (a x : Arr N K) (Wl Wr : Arr K C) (b : Row C) : Arr N C :=
  fun j => elu1 (lin a x Wl Wr b j)

/-- The maximum of row r of l, folded from the value of the minus-infinity word. -/
def rowMax (l : Arr N C) (r : Fin N) : EReal :=
  (Finset.univ : Finset (Fin C)).fold max negInfW (fun q => l (ix2 r q))

/-- The logarithm of the softmax along the rows: (l (r, q) - max_r) - log (∑ q', exp (l (r, q') - max_r)). -/
def logSoftmax (l : Arr N C) : Arr N C :=
  fun j => (l j - rowMax l (j 0)) - Ideal.log (∑ q : Fin C, Ideal.exp (l (ix2 (j 0) q) - rowMax l (j 0)))

/-- The second layer. -/
def layer2 (a h : Arr N K) (Wl Wr : Arr K C) (b : Row C) : Arr N C :=
  logSoftmax (lin a h Wl Wr b)

end Cert.Sage

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.KBody.lean ====
/-
  What each kernel body stores, as a function of the blocks it loads, read index by index at the extended reals:
  the first kernel's block is the first layer of its row block, the second kernel's the second layer.

  Both bodies begin with the same pre-activation: two matrix products accumulated into a zero splat, added, and a
  one-axis bias viewed as one row and repeated over the rows added to that.  Read at (p, q) this is
  (∑ k, a (p, k) Wl (k, q)) + (∑ k, x (p, k) Wr (k, q)) + b (q); the change of format to bf16 is the identity on
  extended reals.  The first body applies the exponential linear unit entry by entry.  The second takes each row's
  maximum (a fold of max from the minus-infinity word over the row), views it as a column and repeats it over the
  columns, subtracts it, sums the exponentials along the row, takes the logarithm of that column and subtracts it.
-/
import proofs.«106515_j2319282340413_1_alg».proof.Proof.Gen.KernelIdeal.Skeleton
import proofs.«106515_j2319282340413_1_alg».proof.Proof.Spec
import proofs.«106515_j2319282340413_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx
open Cert.KernelIdeal Cert.KernelIdeal.Facts₀

variable [Facts]

/-! ## Layout reads: a row repeated over the rows, a column repeated over the columns -/

section Layout
variable {α : Type}

/-- A one-axis array viewed as one column reads, at (i, u), its entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column array repeated over `b` columns reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-axis array viewed as one row and repeated over `m` rows reads, at (p, q), its entry q. -/
theorem row_bias_apply {m n : ℕ} (b : (⟨1, ![n]⟩ : Shape).Idx → α) (h₁ : (⟨1, ![n]⟩ : Shape).ShapeCasts ⟨2, ![1, n]⟩)
    (h₂ : (⟨2, ![1, n]⟩ : Shape).Broadcasts ⟨2, ![m, n]⟩) (p : Fin m) (q : Fin n) :
    broadcastTo ⟨2, ![m, n]⟩ (shapeCast ⟨2, ![1, n]⟩ b h₁) h₂ (ix2 p q) = b (ix1 q) :=
  (broadcastTo_1b_ab_apply _ h₂ p q).trans (shapeCast_a_1a_apply b h₁ 0 q)

/-- A one-axis array viewed as one column and repeated over `n` columns reads, at (p, q), its entry p. -/
theorem col_keep_apply {m n : ℕ} (c : (⟨1, ![m]⟩ : Shape).Idx → α) (h₁ : (⟨1, ![m]⟩ : Shape).ShapeCasts ⟨2, ![m, 1]⟩)
    (h₂ : (⟨2, ![m, 1]⟩ : Shape).Broadcasts ⟨2, ![m, n]⟩) (p : Fin m) (q : Fin n) :
    broadcastTo ⟨2, ![m, n]⟩ (shapeCast ⟨2, ![m, 1]⟩ c h₁) h₂ (ix2 p q) = c (ix1 p) :=
  (broadcastTo_a1_ab_apply _ h₂ p q).trans (shapeCast_a_a1_apply c h₁ p 0)

end Layout

/-! ## The pre-activation both bodies share -/

/-- Two plain matrix products into zero splats, added, plus a one-axis bias repeated over the rows: at (p, q) the
    pre-activation (∑ k, A (p, k) Wl (k, q)) + (∑ k, X (p, k) Wr (k, q)) + b (q). -/
theorem lin_apply {M K N : ℕ} (A X : FVec Ideal (⟨2, ![M, K]⟩ : Shape) .bf16) (Wl Wr : FVec Ideal (⟨2, ![K, N]⟩ : Shape) .bf16)
    (b : FVec Ideal (⟨1, ![N]⟩ : Shape) .f32) (h₁ : (⟨1, ![N]⟩ : Shape).ShapeCasts ⟨2, ![1, N]⟩)
    (h₂ : (⟨2, ![1, N]⟩ : Shape).Broadcasts ⟨2, ![M, N]⟩) (p : Fin M) (q : Fin N) :
    addf (addf (matmul (DotDims.plain M K N) none A Wl (constant (F := Ideal) (⟨2, ![M, N]⟩ : Shape) .f32 0x00000000#32))
        (matmul (DotDims.plain M K N) none X Wr (constant (F := Ideal) (⟨2, ![M, N]⟩ : Shape) .f32 0x00000000#32)))
      (broadcastTo (⟨2, ![M, N]⟩ : Shape) (shapeCast (⟨2, ![1, N]⟩ : Shape) b h₁) h₂) (ix2 p q)
      = Cert.Sage.lin A X Wl Wr b (ix2 p q) := by
  rw [addf_apply, addf_apply]
  refine congrArg₂ (· + ·) (congrArg₂ (· + ·) ?_ ?_) (row_bias_apply b h₁ h₂ p q)
  · exact Cert.PlainDot.matmul_zero_apply none A Wl (ix2 p q)
  · exact Cert.PlainDot.matmul_zero_apply none X Wr (ix2 p q)

/-- The first kernel's contraction record is the plain rows-by-inner times inner-by-columns one. -/
theorem dot1_plain : dot_S5000x128_S128x128_S5000x128_1_0_0_1_n_n = DotDims.plain 5000 128 128 := rfl

/-- The second kernel's contraction record likewise. -/
theorem dot2_plain : dot_S5000x128_S128x16_S5000x16_1_0_0_1_n_n = DotDims.plain 5000 128 16 := rfl

/-! ## The first layer -/

/-- The first kernel's stored block: the first layer of the loaded row block (aggregated rows a, own rows x). -/
theorem pay1_eq (a x : Vec Ideal S5000x128 .f32) (Wl Wr : Vec Ideal S128x128 .f32) (b : Vec Ideal S128 .f32) :
    Gen.k0_pay1 (F := Ideal) a x Wl Wr b = Cert.Sage.layer1 a x Wl Wr b := by
  funext j
  obtain ⟨p, q, rfl⟩ : ∃ (p : Fin 5000) (q : Fin 128), j = ix2 p q := ⟨j 0, j 1, eq_ix2 j⟩
  -- the body is the exponential linear unit of the shared pre-activation, entry by entry
  refine (congrArg Cert.Sage.elu1 (lin_apply (M := 5000) (K := 128) (N := 128)
    (truncf .bf16 (shapeCast S5000x128 a shapeCasts_S5000x128_S5000x128) bitsLt_bf16_f32) (truncf .bf16 x bitsLt_bf16_f32)
    (truncf .bf16 Wl bitsLt_bf16_f32) (truncf .bf16 Wr bitsLt_bf16_f32) b shapeCasts_S128_S1x128 broadcasts_S1x128_S5000x128 p q)).trans ?_
  -- the cast of a to its own shape is the identity, and so is the change of format
  rw [shapeCast_self]
  rfl

/-! ## The second layer -/

/-- The index the row reduction inserts coordinate q into, at row p, is (p, q). -/
theorem lift_row (p : Fin 5000) (q : Fin 16) : reduces_S5000x16_S5000.lift (ix1 p) q = ix2 p q :=
  funext fun a => Fin.ext (by
    match a with
    | ⟨0, _⟩ => rfl
    | ⟨1, _⟩ => rfl)

/-- The row maximum the kernel takes, at row p: the fold of max from the minus-infinity word over the row. -/
theorem rowMax_apply (l : FVec Ideal S5000x16 .f32) (p : Fin 5000) :
    multiReduction .maximumf [1] S5000 l 0xFF800000#32 reduces_S5000x16_S5000 (.inl rfl) rfl (ix1 p) = Cert.Sage.rowMax l p :=
  (Ideal.multiReduction_maximumf_single l 0xFF800000#32 reduces_S5000x16_S5000 (.inl rfl) rfl (ix1 p)).trans
    (congrArg (Finset.univ.fold max (Ideal.ofBits .f32 0xFF800000#32)) (funext fun q : Fin 16 => congrArg l (lift_row p q)))

/-- The row sum the kernel takes, at row p: the sum over the row. -/
theorem rowSum_apply (e : FVec Ideal S5000x16 .f32) (p : Fin 5000) :
    multiReduction .add [1] S5000 e 0x00000000#32 reduces_S5000x16_S5000 (.inl rfl) rfl (ix1 p) = ∑ q : Fin 16, e (ix2 p q) :=
  (Ideal.multiReduction_add_single e 0x00000000#32 reduces_S5000x16_S5000 (.inl rfl) rfl (ix1 p)).trans
    (Finset.sum_congr rfl fun (q : Fin 16) _ => congrArg e (lift_row p q))

/-- The row maximum kept as a column and repeated over the columns. -/
def kMax (l : FVec Ideal S5000x16 .f32) : FVec Ideal S5000x16 .f32 :=
  broadcastTo S5000x16 (shapeCast S5000x1 (multiReduction .maximumf [1] S5000 l 0xFF800000#32 reduces_S5000x16_S5000 (.inl rfl) rfl)
    shapeCasts_S5000_S5000x1) broadcasts_S5000x1_S5000x16

/-- At (p, q) it is the maximum of row p. -/
theorem kMax_apply (l : FVec Ideal S5000x16 .f32) (p : Fin 5000) (q : Fin 16) : kMax l (ix2 p q) = Cert.Sage.rowMax l p :=
  (col_keep_apply _ shapeCasts_S5000_S5000x1 broadcasts_S5000x1_S5000x16 p q).trans (rowMax_apply l p)

/-- The logarithm of the row sum of exponentials of the shifted row, kept as a column and repeated over the columns. -/
def kLogSum (l : FVec Ideal S5000x16 .f32) : FVec Ideal S5000x16 .f32 :=
  broadcastTo S5000x16 (log (shapeCast S5000x1 (multiReduction .add [1] S5000 (exp (subf l (kMax l))) 0x00000000#32
    reduces_S5000x16_S5000 (.inl rfl) rfl) shapeCasts_S5000_S5000x1)) broadcasts_S5000x1_S5000x16

/-- At (p, q) it is the logarithm of the sum over row p of exp (l (p, ·) − max of row p). -/
theorem kLogSum_apply (l : FVec Ideal S5000x16 .f32) (p : Fin 5000) (q : Fin 16) :
    kLogSum l (ix2 p q) = Ideal.log (∑ q' : Fin 16, Ideal.exp (l (ix2 p q') - Cert.Sage.rowMax l p)) := by
  refine (broadcastTo_a1_ab_apply _ broadcasts_S5000x1_S5000x16 p q).trans ?_
  refine congrArg Ideal.log ((shapeCast_a_a1_apply _ shapeCasts_S5000_S5000x1 p 0).trans ?_)
  refine (rowSum_apply _ p).trans (Finset.sum_congr rfl fun q' _ => ?_)
  exact congrArg (fun m => Ideal.exp (l (ix2 p q') - m)) (kMax_apply l p q')

/-- What the second body does after the pre-activation l: (l − max) − log ∑ exp (l − max), row by row. -/
def kLogSoftmax (l : FVec Ideal S5000x16 .f32) : FVec Ideal S5000x16 .f32 :=
  subf (subf l (kMax l)) (kLogSum l)

/-- At (p, q) it is the logarithm of the softmax of row p at q. -/
theorem kLogSoftmax_apply (l : FVec Ideal S5000x16 .f32) (p : Fin 5000) (q : Fin 16) :
    kLogSoftmax l (ix2 p q) = Cert.Sage.logSoftmax l (ix2 p q) :=
  congrArg₂ (· - ·) (congrArg (l (ix2 p q) - ·) (kMax_apply l p q)) (kLogSum_apply l p q)

/-- The second kernel's stored block: the second layer of the loaded row block (aggregated rows a, hidden rows h). -/
theorem pay2_eq (a h : Vec Ideal S5000x128 .f32) (Wl Wr : Vec Ideal S128x16 .f32) (b : Vec Ideal S16 .f32) :
    Gen.k1_pay1 (F := Ideal) a h Wl Wr b = Cert.Sage.layer2 a h Wl Wr b := by
  -- the pre-activation, as an array
  have hl : addf (addf
        (matmul dot_S5000x128_S128x16_S5000x16_1_0_0_1_n_n none
          (truncf .bf16 (shapeCast S5000x128 a shapeCasts_S5000x128_S5000x128) bitsLt_bf16_f32) (truncf .bf16 Wl bitsLt_bf16_f32)
          (constant (F := Ideal) S5000x16 .f32 0x00000000#32))
        (matmul dot_S5000x128_S128x16_S5000x16_1_0_0_1_n_n none
          (truncf .bf16 (shapeCast S5000x128 h shapeCasts_S5000x128_S5000x128) bitsLt_bf16_f32) (truncf .bf16 Wr bitsLt_bf16_f32)
          (constant (F := Ideal) S5000x16 .f32 0x00000000#32)))
      (broadcastTo S5000x16 (shapeCast S1x16 b shapeCasts_S16_S1x16) broadcasts_S1x16_S5000x16)
      = Cert.Sage.lin a h Wl Wr b := by
    funext j
    obtain ⟨p, q, rfl⟩ : ∃ (p : Fin 5000) (q : Fin 16), j = ix2 p q := ⟨j 0, j 1, eq_ix2 j⟩
    refine (lin_apply (M := 5000) (K := 128) (N := 16)
      (truncf .bf16 (shapeCast S5000x128 a shapeCasts_S5000x128_S5000x128) bitsLt_bf16_f32)
      (truncf .bf16 (shapeCast S5000x128 h shapeCasts_S5000x128_S5000x128) bitsLt_bf16_f32)
      (truncf .bf16 Wl bitsLt_bf16_f32) (truncf .bf16 Wr bitsLt_bf16_f32) b shapeCasts_S16_S1x16 broadcasts_S1x16_S5000x16 p q).trans ?_
    rw [shapeCast_self, shapeCast_self]
    rfl
  funext j
  obtain ⟨p, q, rfl⟩ : ∃ (p : Fin 5000) (q : Fin 16), j = ix2 p q := ⟨j 0, j 1, eq_ix2 j⟩
  -- the body is the row-wise tail applied to that array
  refine Eq.trans (b := kLogSoftmax (Cert.Sage.lin a h Wl Wr b) (ix2 p q)) ?_ (kLogSoftmax_apply _ p q)
  rw [← hl]
  rfl

end Cert.KernelIdeal.Body

end
-- ==== Proof.KTerm.lean ====
/-
  The kernel program's host operations around its two kernels, as pure terms of arrays: the two rows of the edge
  list, and the mean over a node's in-neighbours (gather the source rows, add them up per destination, divide by the
  number of in-edges, at least one).
-/
import proofs.«106515_j2319282340413_1_alg».proof.KernelIdeal

noncomputable section

namespace Cert.KernelIdeal.Term

open Idealize.ShloMosaic
open Cert.KernelIdeal Cert.KernelIdeal.Facts₀

variable {F : FTy → Type} [FloatOps F] [Facts]

/-- Row 0 of the edge list: the source node of every edge. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def dstRow (ei : IVec S2x1600000 32) : IVec S1600000 32 :=
  shapeCast S1600000 (extractStridedSlice S1x1600000 ![1, 0] ei slices_S2x1600000_S1x1600000_1_0) shapeCasts_S1x1600000_S1600000

/-- The mean of the rows of x over each node's incoming edges: the rows at the sources (a negative source counted from
    the end) added into their destinations, over the number of incoming edges or one. -/
def agg (x : FVec F S100000x128 .f32) (src dst : IVec S1600000 32) : FVec F S100000x128 .f32 :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 dst)
            (broadcastInDim S1600000 ![] bcast_S_S1600000 (constant (F := F) S_ .f32 0x3F800000#32)))
          (broadcastInDim S100000 ![] bcast_S_S100000 (constant (F := F) S_ .f32 0x3F800000#32)))))

end Cert.KernelIdeal.Term

end
-- ==== Proof.SpecRows.lean ====
/-
  Every entry of a layer depends on one row of the aggregated features and of the node features only: if row p of
  a block holds row P of an array, the layer of the block at (p, q) is the layer of the array at (P, q).
-/
import proofs.«106515_j2319282340413_1_alg».proof.Proof.Spec

noncomputable section

namespace Cert.Sage

open Idealize.ShloMosaic Idealize.ShloMosaic.ValueIdx

variable {N M K C : Nat}

/-- The pre-activation reads row p of its two row operands only. -/
theorem lin_rows (A X : Arr M K) (a x : Arr N K) (Wl Wr : Arr K C) (b : Row C) (p : Fin N) (P : Fin M)
    (ha : ∀ k, a (ix2 p k) = A (ix2 P k)) (hx : ∀ k, x (ix2 p k) = X (ix2 P k)) (q : Fin C) :
    lin a x Wl Wr b (ix2 p q) = lin A X Wl Wr b (ix2 P q) := by
  show ((∑ k : Fin K, a (ix2 p k) * Wl (ix2 k q)) + (∑ k : Fin K, x (ix2 p k) * Wr (ix2 k q))) + b (ix1 q)
     = ((∑ k : Fin K, A (ix2 P k) * Wl (ix2 k q)) + (∑ k : Fin K, X (ix2 P k) * Wr (ix2 k q))) + b (ix1 q)
  simp only [ha, hx]

/-- So does the first layer. -/
theorem layer1_rows (A X : Arr M K) (a x : Arr N K) (Wl Wr : Arr K C) (b : Row C) (p : Fin N) (P : Fin M)
    (ha : ∀ k, a (ix2 p k) = A (ix2 P k)) (hx : ∀ k, x (ix2 p k) = X (ix2 P k)) (q : Fin C) :
    layer1 a x Wl Wr b (ix2 p q) = layer1 A X Wl Wr b (ix2 P q) :=
  congrArg elu1 (lin_rows A X a x Wl Wr b p P ha hx q)

/-- The logarithm of the softmax at (p, q) reads row p only. -/
theorem logSoftmax_rows (L : Arr M C) (l : Arr N C) (p : Fin N) (P : Fin M) (h : ∀ q, l (ix2 p q) = L (ix2 P q)) (q : Fin C) :
    logSoftmax l (ix2 p q) = logSoftmax L (ix2 P q) := by
  have hm : rowMax l p = rowMax L P := by
    unfold rowMax
    exact congrArg (fun f => (Finset.univ : Finset (Fin C)).fold max negInfW f) (funext h)
  show (l (ix2 p q) - rowMax l p) - Ideal.log (∑ q' : Fin C, Ideal.exp (l (ix2 p q') - rowMax l p))
     = (L (ix2 P q) - rowMax L P) - Ideal.log (∑ q' : Fin C, Ideal.exp (L (ix2 P q') - rowMax L P))
  simp only [h, hm]

/-- So does the second layer. -/
theorem layer2_rows (A H : Arr M K) (a h : Arr N K) (Wl Wr : Arr K C) (b : Row C) (p : Fin N) (P : Fin M)
    (ha : ∀ k, a (ix2 p k) = A (ix2 P k)) (hh : ∀ k, h (ix2 p k) = H (ix2 P k)) (q : Fin C) :
    layer2 a h Wl Wr b (ix2 p q) = layer2 A H Wl Wr b (ix2 P q) :=
  logSoftmax_rows _ _ p P (fun q' => lin_rows A H a h Wl Wr b p P ha hh q') q

end Cert.Sage

end
-- ==== Proof.KValue.lean ====
/-
  What the kernel program's result array holds after the run, as one function of the argument arrays.

  Each kernel writes, at grid point t, rows 5000·t … 5000·t + 4999 of its output array; what it writes at row p of the
  block is the layer (`Cert.Sage`) of row 5000·t + p of its two row operands, whose blocks hold exactly those rows,
  with the weight and bias blocks the whole arrays.  The twenty blocks tile the rows, so after each kernel its output
  array IS the layer of the arrays the kernel found.  The first kernel finds the mean-aggregated node features that the
  host operations before it computed; the host operations between the kernels aggregate the first kernel's output;
  the second kernel finds both.
-/
import proofs.«106515_j2319282340413_1_alg».proof.Proof.KRun
import proofs.«106515_j2319282340413_1_alg».proof.Proof.KBody
import proofs.«106515_j2319282340413_1_alg».proof.Proof.KTerm
import proofs.«106515_j2319282340413_1_alg».proof.Proof.SpecRows
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Sage

theorem hz2 : (![0, 0] : Fin 2 → Nat) = fun _ => 0 := funext fun a => by fin_cases a <;> rfl
theorem hz1 : (![0] : Fin 1 → Nat) = fun _ => 0 := funext fun a => by fin_cases a; rfl

section Regions

variable (V : (c : Dev nD) → (b : Ref sig .tc) → Buf (Elt Ideal) ((c : Thread nD τ).loc b))

/-! ## The first kernel -/

/-- The first kernel's output array after its region: the first layer of the arrays it found. -/
def H0 (c : Dev nD) : Arr 100000 128 :=
  layer1 (V c main_v22) (V c main_arg0) (V c main_arg2) (V c main_arg4) (V c main_arg3)

/-- The printed index maps over the twenty points: the row windows are at block t, the others at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 20 := N_0 ▸ t.isLt

/-- Row p of the aggregated-features block at point t is row 5000·t + p of the array. -/
theorem blk0_0 (c : Dev nD) (t : Fin cfg0.N) (p : Fin 5000) (k : Fin 128) (hP : t.val * 5000 + p.val < 100000) :
    (iblk0 V c 0 t : Arr 5000 128) (ix2 p k) = (V c main_v22 : Arr 100000 128) (ix2 ⟨t.val * 5000 + p.val, hP⟩ k) := by
  obtain ⟨e00, e01, -⟩ := idx0 t
  show V c main_v22 (((cfg0.win 0).blk t).view.emb (ix2 p k)) = _
  refine congrArg (V c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row p of the node-features block at point t is row 5000·t + p of the array. -/
theorem blk0_1 (c : Dev nD) (t : Fin cfg0.N) (p : Fin 5000) (k : Fin 128) (hP : t.val * 5000 + p.val < 100000) :
    (iblk0 V c 1 t : Arr 5000 128) (ix2 p k) = (V c main_arg0 : Arr 100000 128) (ix2 ⟨t.val * 5000 + p.val, hP⟩ k) := by
  obtain ⟨-, -, e10, e11, -⟩ := idx0 t
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The neighbour-weights block is the whole array. -/
theorem blk0_2 (c : Dev nD) (t : Fin cfg0.N) : (iblk0 V c 2 t : Arr 128 128) = V c main_arg2 := by
  obtain ⟨-, -, -, -, e20, e21, -⟩ := idx0 t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias block is the whole array. -/
theorem blk0_3 (c : Dev nD) (t : Fin cfg0.N) : (iblk0 V c 3 t : Row 128) = V c main_arg3 := by
  obtain ⟨-, -, -, -, -, -, e30, -⟩ := idx0 t
  funext y
  show V c main_arg3 (((cfg0.win 3).blk t).view.emb y) = V c main_arg3 y
  refine congrArg (V c main_arg3) (funext fun a => Fin.ext ?_)
  match a with
  | ⟨0, _⟩ => show win0_3.index t (0 : Fin 1) * 128 + 1 * (y 0).val = (y 0).val; omega

/-- The root-weights block is the whole array. -/
theorem blk0_4 (c : Dev nD) (t : Fin cfg0.N) : (iblk0 V c 4 t : Arr 128 128) = V c main_arg4 := by
  obtain ⟨-, -, -, -, -, -, -, e40, e41, -⟩ := idx0 t
  funext y
  show V c main_arg4 (((cfg0.win 4).blk t).view.emb y) = V c main_arg4 y
  refine congrArg (V c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What point t writes back is block t of the first layer of the arrays the kernel found. -/
theorem flushed0 (c : Dev nD) (t : Fin cfg0.N) :
    (dat0 V c).flushed 5 t = ((cfg0.win 5).blk t).view.read (Elt Ideal) (H0 V c) := by
  show (cfg0.win 5).cut (grid0.coords t) ((dat0 V c).after 5 t) = _
  rw [after0_5]
  unfold out0_5
  rw [View.canon_unit_zero hz2]
  simp only [View.ld_unit_zero (S := S5000x128) hz2, View.ld_unit_zero (S := S128x128) hz2, View.ld_unit_zero (S := S128) hz1]
  rw [Body.pay1_eq]
  have ht := lt0 t
  obtain ⟨-, -, -, -, -, -, -, -, -, e50, e51⟩ := idx0 t
  funext j
  obtain ⟨p, q, rfl⟩ : ∃ (p : Fin 5000) (q : Fin 128), j = ix2 p q := ⟨j 0, j 1, eq_ix2 j⟩
  have hP : t.val * 5000 + p.val < 100000 := by have := p.isLt; omega
  show layer1 (iblk0 V c 0 t) (iblk0 V c 1 t) (iblk0 V c 2 t) (iblk0 V c 4 t) (iblk0 V c 3 t) (ix2 p q)
      = H0 V c (((cfg0.win 5).blk t).view.emb (ix2 p q))
  have hidx : ((cfg0.win 5).blk t).view.emb (ix2 p q) = ix2 (⟨t.val * 5000 + p.val, hP⟩ : Fin 100000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  rw [hidx, blk0_2 V c t, blk0_3 V c t, blk0_4 V c t]
  exact layer1_rows (V c main_v22) (V c main_arg0) (iblk0 V c 0 t) (iblk0 V c 1 t) (V c main_arg2) (V c main_arg4) (V c main_arg3)
    p ⟨t.val * 5000 + p.val, hP⟩ (fun k => blk0_0 V c t p k hP) (fun k => blk0_1 V c t p k hP) q

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every index of the output array is in the block of the point its row falls to. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by rw [show cfg0.N = 20 from N_0]; omega
  refine ⟨⟨(i 0).val / 5000, hN⟩, flush0_5 _, ?_⟩
  rw [mem_blk0]
  obtain ⟨-, -, -, -, -, -, -, -, -, e50, e51⟩ := idx0 ⟨(i 0).val / 5000, hN⟩
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e51]; omega

/-- The first kernel's output array after its region. -/
theorem final0 (c : Dev nD) : (dat0 V c).arrAt 5 cfg0.N = H0 V c :=
  (dat0 V c).arrAt_eq_of_cover 5 (H0 V c) (fun t _ => flushed0 V c t) cover0

/-! ## The second kernel -/

/-- The second kernel's output array after its region: the second layer of the arrays it found. -/
def H1 (c : Dev nD) : Arr 100000 16 :=
  layer2 (V c main_v42) (V c main_v23) (V c main_arg5) (V c main_arg7) (V c main_arg6)

/-- The printed index maps over the twenty points: the row windows are at block t, the others at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 20 := N_1 ▸ t.isLt

/-- Row p of the aggregated-features block at point t is row 5000·t + p of the array. -/
theorem blk1_0 (c : Dev nD) (t : Fin cfg1.N) (p : Fin 5000) (k : Fin 128) (hP : t.val * 5000 + p.val < 100000) :
    (iblk1 V c 0 t : Arr 5000 128) (ix2 p k) = (V c main_v42 : Arr 100000 128) (ix2 ⟨t.val * 5000 + p.val, hP⟩ k) := by
  obtain ⟨e00, e01, -⟩ := idx1 t
  show V c main_v42 (((cfg1.win 0).blk t).view.emb (ix2 p k)) = _
  refine congrArg (V c main_v42) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of the hidden-features block at point t is row 5000·t + p of the array. -/
theorem blk1_1 (c : Dev nD) (t : Fin cfg1.N) (p : Fin 5000) (k : Fin 128) (hP : t.val * 5000 + p.val < 100000) :
    (iblk1 V c 1 t : Arr 5000 128) (ix2 p k) = (V c main_v23 : Arr 100000 128) (ix2 ⟨t.val * 5000 + p.val, hP⟩ k) := by
  obtain ⟨-, -, e10, e11, -⟩ := idx1 t
  show V c main_v23 (((cfg1.win 1).blk t).view.emb (ix2 p k)) = _
  refine congrArg (V c main_v23) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The neighbour-weights block is the whole array. -/
theorem blk1_2 (c : Dev nD) (t : Fin cfg1.N) : (iblk1 V c 2 t : Arr 128 16) = V c main_arg5 := by
  obtain ⟨-, -, -, -, e20, e21, -⟩ := idx1 t
  funext y
  show V c main_arg5 (((cfg1.win 2).blk t).view.emb y) = V c main_arg5 y
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 16 + 1 * (y 1).val = (y 1).val; omega

/-- The bias block is the whole array. -/
theorem blk1_3 (c : Dev nD) (t : Fin cfg1.N) : (iblk1 V c 3 t : Row 16) = V c main_arg6 := by
  obtain ⟨-, -, -, -, -, -, e30, -⟩ := idx1 t
  funext y
  show V c main_arg6 (((cfg1.win 3).blk t).view.emb y) = V c main_arg6 y
  refine congrArg (V c main_arg6) (funext fun a => Fin.ext ?_)
  match a with
  | ⟨0, _⟩ => show win1_3.index t (0 : Fin 1) * 16 + 1 * (y 0).val = (y 0).val; omega

/-- The root-weights block is the whole array. -/
theorem blk1_4 (c : Dev nD) (t : Fin cfg1.N) : (iblk1 V c 4 t : Arr 128 16) = V c main_arg7 := by
  obtain ⟨-, -, -, -, -, -, -, e40, e41, -⟩ := idx1 t
  funext y
  show V c main_arg7 (((cfg1.win 4).blk t).view.emb y) = V c main_arg7 y
  refine congrArg (V c main_arg7) (funext fun a => Fin.ext ?_)
  match a with
  | ⟨0, _⟩ => show win1_4.index t (0 : Fin 2) * 128 + 1 * (y 0).val = (y 0).val; omega
  | ⟨1, _⟩ => show win1_4.index t (1 : Fin 2) * 16 + 1 * (y 1).val = (y 1).val; omega

/-- What point t writes back is block t of the second layer of the arrays the kernel found. -/
theorem flushed1 (c : Dev nD) (t : Fin cfg1.N) :
    (dat1 V c).flushed 5 t = ((cfg1.win 5).blk t).view.read (Elt Ideal) (H1 V c) := by
  show (cfg1.win 5).cut (grid1.coords t) ((dat1 V c).after 5 t) = _
  rw [after1_5]
  unfold out1_5
  rw [View.canon_unit_zero hz2]
  simp only [View.ld_unit_zero (S := S5000x128) hz2, View.ld_unit_zero (S := S128x16) hz2, View.ld_unit_zero (S := S16) hz1]
  rw [Body.pay2_eq]
  have ht := lt1 t
  obtain ⟨-, -, -, -, -, -, -, -, -, e50, e51⟩ := idx1 t
  funext j
  obtain ⟨p, q, rfl⟩ : ∃ (p : Fin 5000) (q : Fin 16), j = ix2 p q := ⟨j 0, j 1, eq_ix2 j⟩
  have hP : t.val * 5000 + p.val < 100000 := by have := p.isLt; omega
  show layer2 (iblk1 V c 0 t) (iblk1 V c 1 t) (iblk1 V c 2 t) (iblk1 V c 4 t) (iblk1 V c 3 t) (ix2 p q)
      = H1 V c (((cfg1.win 5).blk t).view.emb (ix2 p q))
  have hidx : ((cfg1.win 5).blk t).view.emb (ix2 p q) = ix2 (⟨t.val * 5000 + p.val, hP⟩ : Fin 100000) q := by
    funext a; apply Fin.ext
    match a with
    | ⟨0, _⟩ => show win1_5.index t (0 : Fin 2) * 5000 + 1 * p.val = t.val * 5000 + p.val; omega
    | ⟨1, _⟩ => show win1_5.index t (1 : Fin 2) * 16 + 1 * q.val = q.val; omega
  rw [hidx, blk1_2 V c t, blk1_3 V c t, blk1_4 V c t]
  exact layer2_rows (V c main_v42) (V c main_v23) (iblk1 V c 0 t) (iblk1 V c 1 t) (V c main_arg5) (V c main_arg7) (V c main_arg6)
    p ⟨t.val * 5000 + p.val, hP⟩ (fun k => blk1_0 V c t p k hP) (fun k => blk1_1 V c t p k hP) q

/-- An index of the output array is in point t's block iff each coordinate is in the block's range on its axis. -/
theorem mem_blk1 (t : Fin cfg1.N) (i : S100000x16.Idx) :
    i ∈ ((cfg1.win 5).blk t).view.set ↔ ∀ a : Fin 2, win1_5.index t a * S5000x16.size a ≤ (i a).val ∧ (i a).val < win1_5.index t a * S5000x16.size a + S5000x16.size a := by
  show i ∈ ((View.whole main_v43).slice (win1_5.rect t)).set ↔ _
  rw [View.set_slice_whole, Rect.mem_set_unit]
  exact Iff.rfl

/-- Every index of the output array is in the block of the point its row falls to. -/
theorem cover1 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : (i 0).val / 5000 < cfg1.N := by rw [show cfg1.N = 20 from N_1]; omega
  refine ⟨⟨(i 0).val / 5000, hN⟩, flush1_5 _, ?_⟩
  rw [mem_blk1]
  obtain ⟨-, -, -, -, -, -, -, -, -, e50, e51⟩ := idx1 ⟨(i 0).val / 5000, hN⟩
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 16 ≤ (i 1).val ∧ (i 1).val < win1_5.index ⟨(i 0).val / 5000, hN⟩ (1 : Fin 2) * 16 + 16
    rw [e51]; omega

/-- The second kernel's output array after its region. -/
theorem final1 (c : Dev nD) : (dat1 V c).arrAt 5 cfg1.N = H1 V c :=
  (dat1 V c).arrAt_eq_of_cover 5 (H1 V c) (fun t _ => flushed1 V c t) cover1

end Regions

/-! ## The run: the buffers the kernels find, back to the launch -/

section Run

variable (m : (ℓ : Loc nD τ sig) → Buf (Elt Ideal) ℓ) (ρ : Dev nD → PrngReg)

/-- The source row of the edge list, from the launch contents. -/
abbrev src (c : Dev nD) : IVec S1600000 32 := Term.srcRow (m ((c : Thread nD τ).loc main_arg1))
/-- The destination row of the edge list, from the launch contents. -/
abbrev dst (c : Dev nD) : IVec S1600000 32 := Term.dstRow (m ((c : Thread nD τ).loc main_arg1))

/-- The hidden features: the first layer of the mean-aggregated node features and the node features. -/
def hidden (c : Dev nD) : Arr 100000 128 :=
  layer1 (Term.agg (F := Ideal) (m ((c : Thread nD τ).loc main_arg0)) (src m c) (dst m c)) (m ((c : Thread nD τ).loc main_arg0))
    (m ((c : Thread nD τ).loc main_arg2)) (m ((c : Thread nD τ).loc main_arg4)) (m ((c : Thread nD τ).loc main_arg3))

/-- The program's result: the second layer of the mean-aggregated hidden features and the hidden features. -/
def out (c : Dev nD) : Arr 100000 16 :=
  layer2 (Term.agg (F := Ideal) (hidden m c) (src m c) (dst m c)) (hidden m c)
    (m ((c : Thread nD τ).loc main_arg5)) (m ((c : Thread nD τ).loc main_arg7)) (m ((c : Thread nD τ).loc main_arg6))

/-! ### At the first kernel's entry -/

theorem V1_v22 (c : Dev nD) : V1 m ρ c main_v22 = Term.agg (F := Ideal) (m ((c : Thread nD τ).loc main_arg0)) (src m c) (dst m c) := by
  show StableHlo.after hostOps0 (W0 m ρ c) (Proc.devRef .tc main_v22) = _
  after_results
  rfl

theorem V1_v1 (c : Dev nD) : V1 m ρ c main_v1 = src m c := by
  show StableHlo.after hostOps0 (W0 m ρ c) (Proc.devRef .tc main_v1) = _
  after_results
  rfl

theorem V1_v3 (c : Dev nD) : V1 m ρ c main_v3 = dst m c := by
  show StableHlo.after hostOps0 (W0 m ρ c) (Proc.devRef .tc main_v3) = _
  after_results
  rfl

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results
theorem V1_arg7 (c : Dev nD) : V1 m ρ c main_arg7 = m ((c : Thread nD τ).loc main_arg7) := by
  show StableHlo.after hostOps0 (W0 m ρ c) (Proc.devRef .tc main_arg7) = _
  after_results

/-! ### At the first kernel's exit -/

/-- The first kernel leaves the hidden features in its output array. -/
theorem W2_v23 (c : Dev nD) : W2 m ρ c (Proc.devRef .tc main_v23) = hidden m c := by
  refine (W2_arr m ρ c 5).trans ((final0 (V1 m ρ) c).trans ?_)
  unfold H0 hidden
  rw [V1_v22, V1_arg0, V1_arg2, V1_arg3, V1_arg4]

theorem W2_v1 (c : Dev nD) : W2 m ρ c (Proc.devRef .tc main_v1) = src m c :=
  (W2_of_ne m ρ c main_v1 (by decide)).trans (V1_v1 m ρ c)
theorem W2_v3 (c : Dev nD) : W2 m ρ c (Proc.devRef .tc main_v3) = dst m c :=
  (W2_of_ne m ρ c main_v3 (by decide)).trans (V1_v3 m ρ c)
theorem W2_arg5 (c : Dev nD) : W2 m ρ c (Proc.devRef .tc main_arg5) = m ((c : Thread nD τ).loc main_arg5) :=
  (W2_of_ne m ρ c main_arg5 (by decide)).trans (V1_arg5 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_arg7 (c : Dev nD) : W2 m ρ c (Proc.devRef .tc main_arg7) = m ((c : Thread nD τ).loc main_arg7) :=
  (W2_of_ne m ρ c main_arg7 (by decide)).trans (V1_arg7 m ρ c)

/-! ### At the second kernel's entry -/

theorem V3_v42 (c : Dev nD) : V3 m ρ c main_v42 = Term.agg (F := Ideal) (hidden m c) (src m c) (dst m c) := by
  have e : V3 m ρ c main_v42 = Term.agg (F := Ideal) (W2 m ρ c (Proc.devRef .tc main_v23)) (W2 m ρ c (Proc.devRef .tc main_v1))
      (W2 m ρ c (Proc.devRef .tc main_v3)) := by
    show StableHlo.after hostOps1 (W2 m ρ c) (Proc.devRef .tc main_v42) = _
    after_results
    rfl
  rw [e, W2_v23, W2_v1, W2_v3]

theorem V3_v23 (c : Dev nD) : V3 m ρ c main_v23 = hidden m c := by
  have e : V3 m ρ c main_v23 = W2 m ρ c (Proc.devRef .tc main_v23) := by
    show StableHlo.after hostOps1 (W2 m ρ c) (Proc.devRef .tc main_v23) = _
    after_results
  rw [e, W2_v23]

theorem V3_arg5 (c : Dev nD) : V3 m ρ c main_arg5 = m ((c : Thread nD τ).loc main_arg5) := by
  have e : V3 m ρ c main_arg5 = W2 m ρ c (Proc.devRef .tc main_arg5) := by
    show StableHlo.after hostOps1 (W2 m ρ c) (Proc.devRef .tc main_arg5) = _
    after_results
  rw [e, W2_arg5]
theorem V3_arg6 (c : Dev nD) : V3 m ρ c main_arg6 = m ((c : Thread nD τ).loc main_arg6) := by
  have e : V3 m ρ c main_arg6 = W2 m ρ c (Proc.devRef .tc main_arg6) := by
    show StableHlo.after hostOps1 (W2 m ρ c) (Proc.devRef .tc main_arg6) = _
    after_results
  rw [e, W2_arg6]
theorem V3_arg7 (c : Dev nD) : V3 m ρ c main_arg7 = m ((c : Thread nD τ).loc main_arg7) := by
  have e : V3 m ρ c main_arg7 = W2 m ρ c (Proc.devRef .tc main_arg7) := by
    show StableHlo.after hostOps1 (W2 m ρ c) (Proc.devRef .tc main_arg7) = _
    after_results
  rw [e, W2_arg7]

/-! ### The result -/

/-- After the run the result array holds `out`. -/
theorem kernel_out (c : Dev nD) : W4 m ρ c (Proc.devRef .tc main_v43) = out m c := by
  refine (W4_arr m ρ c 5).trans ((final1 (V3 m ρ) c).trans ?_)
  unfold H1 out
  rw [V3_v42, V3_v23, V3_arg5, V3_arg6, V3_arg7]

/-- The program's run, its result array at `out` of the launch contents, its arguments as launched. -/
theorem run : θ_run (defs (F := Ideal)) (onTc (τ := τ) (main (F := Ideal))) ⟨m, fun _ => 0, ρ⟩ (fun r => ∀ c : Dev nD,
      r.2.mem ((c.tc : Thread nD τ).loc main_v43) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun r h c => ⟨(h c).1.trans (kernel_out m ρ c), (h c).2⟩) (Cert.KernelIdeal.Run.run_main m ρ)

end Run

end Cert.KernelIdeal.KValue

end
-- ==== Proof.RefTerm.lean ====
/-
  The reference program's result as ONE pure term of its argument arrays, in named pieces: the two rows of the edge
  list; the mean over a node's in-neighbours (gather the source rows, add them up per destination, divide by the
  number of in-edges, at least one); a layer's linear map (neighbour product, plus bias, plus root product); the
  exponential linear unit and the logarithm of the softmax as the host spells them.
-/
import proofs.«106515_j2319282340413_1_alg».proof.ReferenceIdeal

noncomputable section

namespace Cert.ReferenceIdeal.Term

open Idealize.ShloMosaic
open Cert.ReferenceIdeal Cert.ReferenceIdeal.Facts₀

variable {F : FTy → Type} [FloatOps F] [Facts]

/-- Row 0 of the edge list: the source node of every edge. -/
def srcRow (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def dstRow (ei : IVec S2x1600000 32) : IVec S1600000 32 :=
  shapeCast S1600000 (extractStridedSlice S1x1600000 ![1, 0] ei slices_S2x1600000_S1x1600000_1_0) shapeCasts_S1x1600000_S1600000

/-- The mean of the rows of x over each node's incoming edges: the rows at the sources (a negative source counted from
    the end) added into their destinations, over the number of incoming edges or one. -/
def agg (x : FVec F S100000x128 .f32) (src dst : IVec S1600000 32) : FVec F S100000x128 .f32 :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := F) S_ .f32 0x00000000#32))
            (broadcastInDim S1600000x1 ![0] bcast_S1600000_S1600000x1_0 dst)
            (broadcastInDim S1600000 ![] bcast_S_S1600000 (constant (F := F) S_ .f32 0x3F800000#32)))
          (broadcastInDim S100000 ![] bcast_S_S100000 (constant (F := F) S_ .f32 0x3F800000#32)))))

/-- The first layer's linear map: (a · Wl + b) + x · Wr. -/
def lin1 (a x : FVec F S100000x128 .f32) (Wl : FVec F S128x128 .f32) (b : FVec F S128 .f32) (Wr : FVec F S128x128 .f32) :
    FVec F S100000x128 .f32 :=
  addf
    (addf (Host.dotGeneral dot_S100000x128_S128x128_S100000x128_1_0_0_1_n_n none a Wl)
      (broadcastInDim S100000x128 ![0, 1] bcast_S1x128_S100000x128_0_1 (broadcastInDim S1x128 ![1] bcast_S128_S1x128_1 b)))
    (Host.dotGeneral dot_S100000x128_S128x128_S100000x128_1_0_0_1_n_n none x Wr)

/-- The second layer's linear map: (a · Wl + b) + h · Wr. -/
def lin2 (a h : FVec F S100000x128 .f32) (Wl : FVec F S128x16 .f32) (b : FVec F S16 .f32) (Wr : FVec F S128x16 .f32) :
    FVec F S100000x16 .f32 :=
  addf
    (addf (Host.dotGeneral dot_S100000x128_S128x16_S100000x16_1_0_0_1_n_n none a Wl)
      (broadcastInDim S100000x16 ![0, 1] bcast_S1x16_S100000x16_0_1 (broadcastInDim S1x16 ![1] bcast_S16_S1x16_1 b)))
    (Host.dotGeneral dot_S100000x128_S128x16_S100000x16_1_0_0_1_n_n none h Wr)

/-- The exponential linear unit as the host spells it: where t > 0, t; elsewhere one times (exp − 1) of t with its
    positive entries replaced by zero. -/
def elu (t : FVec F S100000x128 .f32) : FVec F S100000x128 .f32 :=
  select (cmpf .ogt t (broadcastInDim S100000x128 ![] bcast_S_S100000x128 (constant (F := F) S_ .f32 0x00000000#32))) t
    (mulf (broadcastInDim S100000x128 ![] bcast_S_S100000x128 (constant (F := F) S_ .f32 0x3F800000#32))
      (Host.expm1
        (select (cmpf .ogt t (broadcastInDim S100000x128 ![] bcast_S_S100000x128 (constant (F := F) S_ .f32 0x00000000#32)))
          (broadcastInDim S100000x128 ![] bcast_S_S100000x128 (id (constant (F := F) S_ .f32 0x00000000#32))) t)))

/-- A row's entries less the row's maximum (the maximum taken once more against minus infinity). -/
def shifted (l : FVec F S100000x16 .f32) : FVec F S100000x16 .f32 :=
  subf l
    (broadcastInDim S100000x16 ![0, 1] bcast_S100000x1_S100000x16_0_1
      (broadcastInDim S100000x1 ![0] bcast_S100000_S100000x1_0
        (maximumf (broadcastInDim S100000 ![] bcast_S_S100000 (constant (F := F) S_ .f32 0xFF800000#32))
          (Host.reduce FloatOps.maximumf l (constant (F := F) S_ .f32 0xFF800000#32) reducesTo_S100000x16_S100000_d1 h_S_))))

/-- The logarithm of the softmax along the rows as the host spells it. -/
def logSoftmax (l : FVec F S100000x16 .f32) : FVec F S100000x16 .f32 :=
  subf (shifted l)
    (broadcastInDim S100000x16 ![0, 1] bcast_S100000x1_S100000x16_0_1
      (Host.log
        (broadcastInDim S100000x1 ![0] bcast_S100000_S100000x1_0
          (Host.reduceAdd (Host.exp (shifted l)) (constant (F := F) S_ .f32 0x00000000#32) reducesTo_S100000x16_S100000_d1 h_S_))))

/-- The hidden features: the first layer of the reference. -/
def hidden (x : FVec F S100000x128 .f32) (ei : IVec S2x1600000 32) (W1l : FVec F S128x128 .f32) (b1 : FVec F S128 .f32)
    (W1r : FVec F S128x128 .f32) : FVec F S100000x128 .f32 :=
  elu (lin1 (agg x (srcRow ei) (dstRow ei)) x W1l b1 W1r)

/-- The reference's result. -/
def refOut (x : FVec F S100000x128 .f32) (ei : IVec S2x1600000 32) (W1l : FVec F S128x128 .f32) (b1 : FVec F S128 .f32)
    (W1r : FVec F S128x128 .f32) (W2l : FVec F S128x16 .f32) (b2 : FVec F S16 .f32) (W2r : FVec F S128x16 .f32) :
    FVec F S100000x16 .f32 :=
  logSoftmax (lin2 (agg (hidden x ei W1l b1 W1r) (srcRow ei) (dstRow ei)) (hidden x ei W1l b1 W1r) W2l b2 W2r)

end Cert.ReferenceIdeal.Term

end
-- ==== Proof.RefRun.lean ====
/-
  The reference program's run: every weakly fair execution of its @main terminates, the result array holds the
  composed term of the argument arrays, and the argument arrays are unchanged.
-/
import proofs.«106515_j2319282340413_1_alg».proof.Proof.RefTerm
import Idealize.ShloMosaic.Lib.StableHlo.Run

noncomputable section

namespace Cert.ReferenceIdeal.RefRun

open Idealize.ShloMosaic Idealize.SL.Sem Idealize.ShloMosaic.StableHlo
open Cert.ReferenceIdeal Cert.ReferenceIdeal.Facts₀

variable {F : FTy → Type} [FloatOps F] [Facts]

section Fold

open Idealize.ShloMosaic.TcCoe

/-- @main's operations in order, each call's operations written at its site over the call's buffers (typed
    references, as the called function's body has them): the two rows of the edge list; the first mean over in-neighbours (index normalisation, gather, the two scatter-adds, the division);
    the first linear map; the exponential linear unit's fifteen (its two comparisons against zero, the inner choice
    of zero where positive, exp − 1, the product with one, the outer choice); the second mean over in-neighbours
    (the index normalisation once more); the second linear map; the logarithm of the softmax's fifteen. -/
abbrev ops : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x128_S1600000x1_S1600000x128_1_0_n_n_0_1_1128 x i),
    nullary main_cst (constant S_ .f32 0x00000000#32),
    unary main_cst main_v11 (broadcastInDim S100000x128 ![] bcast_S_S100000x128),
    unary main_v3 main_v12 (broadcastInDim S1600000x1 ![0] bcast_S1600000_S1600000x1_0),
    ternary main_v11 main_v12 main_v10 main_v13 (fun x i u => Host.scatterAdd scatter_S100000x128_S1600000x1_S1600000x128_1_0_0_1 x i u),
    nullary main_cst_1 (constant S_ .f32 0x3F800000#32),
    unary main_cst_1 main_v14 (broadcastInDim S1600000 ![] bcast_S_S1600000),
    nullary main_cst_2 (constant S_ .f32 0x00000000#32),
    unary main_cst_2 main_v15 (broadcastInDim S100000 ![] bcast_S_S100000),
    unary main_v3 main_v16 (broadcastInDim S1600000x1 ![0] bcast_S1600000_S1600000x1_0),
    ternary main_v15 main_v16 main_v14 main_v17 (fun x i u => Host.scatterAdd scatter_S100000_S1600000x1_S1600000_n_0_0_1 x i u),
    nullary main_cst_3 (constant S_ .f32 0x3F800000#32),
    unary main_cst_3 main_v18 (broadcastInDim S100000 ![] bcast_S_S100000),
    binary main_v17 main_v18 main_v19 maximumf,
    unary main_v19 main_v20 (broadcastInDim S100000x1 ![0] bcast_S100000_S100000x1_0),
    unary main_v20 main_v21 (broadcastInDim S100000x128 ![0, 1] bcast_S100000x1_S100000x128_0_1),
    binary main_v13 main_v21 main_v22 Host.divf,
    binary main_v22 main_arg2 main_v23 (fun l r => Host.dotGeneral dot_S100000x128_S128x128_S100000x128_1_0_0_1_n_n none l r),
    unary main_arg3 main_v24 (broadcastInDim S1x128 ![1] bcast_S128_S1x128_1),
    unary main_v24 main_v25 (broadcastInDim S100000x128 ![0, 1] bcast_S1x128_S100000x128_0_1),
    binary main_v23 main_v25 main_v26 addf,
    binary main_arg0 main_arg4 main_v27 (fun l r => Host.dotGeneral dot_S100000x128_S128x128_S100000x128_1_0_0_1_n_n none l r),
    binary main_v26 main_v27 main_v28 addf,
    TRef.nullary main_call0.cst (constant S_ .f32 0x00000000#32),
    TRef.unary main_call0.cst main_call0.v0 (broadcastInDim S100000x128 ![] bcast_S_S100000x128),
    TRef.binary (.of main_v28 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v28 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v28 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v28 : TRef sig ⟨S100000x128, .f32⟩) main_call0.v7 main_call0.call1.v0 select,
    nullary main_c_4 (constantI S_ 32 0#32),
    unary main_c_4 main_v30 (broadcastInDim S1600000 ![] bcast_S_S1600000),
    binary main_v1 main_v30 main_v31 (cmpi .slt),
    nullary main_c_5 (constantI S_ 32 100000#32),
    unary main_c_5 main_v32 (broadcastInDim S1600000 ![] bcast_S_S1600000),
    binary main_v1 main_v32 main_v33 addi,
    ternary main_v31 main_v33 main_v1 main_v34 select,
    unary main_v34 main_v35 (broadcastInDim S1600000x1 ![0] bcast_S1600000_S1600000x1_0),
    binary main_v29 main_v35 main_v36 (fun x i => Host.gather gather_S100000x128_S1600000x1_S1600000x128_1_0_n_n_0_1_1128 x i),
    nullary main_cst_6 (constant S_ .f32 0x00000000#32),
    unary main_cst_6 main_v37 (broadcastInDim S100000x128 ![] bcast_S_S100000x128),
    unary main_v3 main_v38 (broadcastInDim S1600000x1 ![0] bcast_S1600000_S1600000x1_0),
    ternary main_v37 main_v38 main_v36 main_v39 (fun x i u => Host.scatterAdd scatter_S100000x128_S1600000x1_S1600000x128_1_0_0_1 x i u),
    nullary main_cst_7 (constant S_ .f32 0x3F800000#32),
    unary main_cst_7 main_v40 (broadcastInDim S1600000 ![] bcast_S_S1600000),
    nullary main_cst_8 (constant S_ .f32 0x00000000#32),
    unary main_cst_8 main_v41 (broadcastInDim S100000 ![] bcast_S_S100000),
    unary main_v3 main_v42 (broadcastInDim S1600000x1 ![0] bcast_S1600000_S1600000x1_0),
    ternary main_v41 main_v42 main_v40 main_v43 (fun x i u => Host.scatterAdd scatter_S100000_S1600000x1_S1600000_n_0_0_1 x i u),
    nullary main_cst_9 (constant S_ .f32 0x3F800000#32),
    unary main_cst_9 main_v44 (broadcastInDim S100000 ![] bcast_S_S100000),
    binary main_v43 main_v44 main_v45 maximumf,
    unary main_v45 main_v46 (broadcastInDim S100000x1 ![0] bcast_S100000_S100000x1_0),
    unary main_v46 main_v47 (broadcastInDim S100000x128 ![0, 1] bcast_S100000x1_S100000x128_0_1),
    binary main_v39 main_v47 main_v48 Host.divf,
    binary main_v48 main_arg5 main_v49 (fun l r => Host.dotGeneral dot_S100000x128_S128x16_S100000x16_1_0_0_1_n_n none l r),
    unary main_arg6 main_v50 (broadcastInDim S1x16 ![1] bcast_S16_S1x16_1),
    unary main_v50 main_v51 (broadcastInDim S100000x16 ![0, 1] bcast_S1x16_S100000x16_0_1),
    binary main_v49 main_v51 main_v52 addf,
    binary main_v29 main_arg7 main_v53 (fun l r => Host.dotGeneral dot_S100000x128_S128x16_S100000x16_1_0_0_1_n_n none l r),
    binary main_v52 main_v53 main_v54 addf,
    TRef.nullary main_call1.cst (constant S_ .f32 0xFF800000#32),
    TRef.binary (.of main_v54 : TRef sig ⟨S100000x16, .f32⟩) main_call1.cst main_call1.v0 (fun x v => Host.reduce FloatOps.maximumf x v reducesTo_S100000x16_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x16 ![0, 1] bcast_S100000x1_S100000x16_0_1),
    TRef.binary (.of main_v54 : TRef sig ⟨S100000x16, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x16_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x16 ![0, 1] bcast_S100000x1_S100000x16_0_1),
    TRef.binary main_call1.v5 main_call1.v10 main_call1.v11 subf ]

-- ninety-six binds re-associated: the rewrite under the chain recurses once per statement
set_option maxRecDepth 8192 in
set_option maxHeartbeats 4000000 in
/-- @main is that straight line: the two windows and the functions' definitions unfolded at their calls, both sides
    are one chain of steps once sequencing is reassociated. -/
theorem main_eq (c : Dev nD) : main (F := F) c = seq ops := by
  simp only [main, main_part0, main_part1, fn_elu.body, fn_where.body, fn_where_0.body, fn_log_softmax.body, seq,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-! ## The line in five stretches

One pass over the whole line would meet the hidden features twice and the exponential linear unit's argument three
times, each a term of dozens of operations; read stretch by stretch, each stretch's result is a term over the
contents of the few buffers it reads. -/

/-- The first stretch: the two rows of the edge list, the mean of the features over each node's in-neighbours, and
    the first layer's linear map (@main's first thirty-five operations). -/
def opsA : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x128_S1600000x1_S1600000x128_1_0_n_n_0_1_1128 x i),
    nullary main_cst (constant S_ .f32 0x00000000#32),
    unary main_cst main_v11 (broadcastInDim S100000x128 ![] bcast_S_S100000x128),
    unary main_v3 main_v12 (broadcastInDim S1600000x1 ![0] bcast_S1600000_S1600000x1_0),
    ternary main_v11 main_v12 main_v10 main_v13 (fun x i u => Host.scatterAdd scatter_S100000x128_S1600000x1_S1600000x128_1_0_0_1 x i u),
    nullary main_cst_1 (constant S_ .f32 0x3F800000#32),
    unary main_cst_1 main_v14 (broadcastInDim S1600000 ![] bcast_S_S1600000),
    nullary main_cst_2 (constant S_ .f32 0x00000000#32),
    unary main_cst_2 main_v15 (broadcastInDim S100000 ![] bcast_S_S100000),
    unary main_v3 main_v16 (broadcastInDim S1600000x1 ![0] bcast_S1600000_S1600000x1_0),
    ternary main_v15 main_v16 main_v14 main_v17 (fun x i u => Host.scatterAdd scatter_S100000_S1600000x1_S1600000_n_0_0_1 x i u),
    nullary main_cst_3 (constant S_ .f32 0x3F800000#32),
    unary main_cst_3 main_v18 (broadcastInDim S100000 ![] bcast_S_S100000),
    binary main_v17 main_v18 main_v19 maximumf,
    unary main_v19 main_v20 (broadcastInDim S100000x1 ![0] bcast_S100000_S100000x1_0),
    unary main_v20 main_v21 (broadcastInDim S100000x128 ![0, 1] bcast_S100000x1_S100000x128_0_1),
    binary main_v13 main_v21 main_v22 Host.divf,
    binary main_v22 main_arg2 main_v23 (fun l r => Host.dotGeneral dot_S100000x128_S128x128_S100000x128_1_0_0_1_n_n none l r),
    unary main_arg3 main_v24 (broadcastInDim S1x128 ![1] bcast_S128_S1x128_1),
    unary main_v24 main_v25 (broadcastInDim S100000x128 ![0, 1] bcast_S1x128_S100000x128_0_1),
    binary main_v23 main_v25 main_v26 addf,
    binary main_arg0 main_arg4 main_v27 (fun l r => Host.dotGeneral dot_S100000x128_S128x128_S100000x128_1_0_0_1_n_n none l r),
    binary main_v26 main_v27 main_v28 addf ]

/-- The second stretch: the exponential linear unit's fifteen operations over its call's buffers. -/
def opsB : List (HloOp τ sig (Elt F)) :=
  [ TRef.nullary main_call0.cst (constant S_ .f32 0x00000000#32),
    TRef.unary main_call0.cst main_call0.v0 (broadcastInDim S100000x128 ![] bcast_S_S100000x128),
    TRef.binary (.of main_v28 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v28 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v28 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v28 : TRef sig ⟨S100000x128, .f32⟩) main_call0.v7 main_call0.call1.v0 select ]

/-- The third stretch: the mean of the hidden features over each node's in-neighbours (the index normalisation
    computed once more) and the second layer's linear map (thirty-one operations). -/
def opsC : List (HloOp τ sig (Elt F)) :=
  [ nullary main_c_4 (constantI S_ 32 0#32),
    unary main_c_4 main_v30 (broadcastInDim S1600000 ![] bcast_S_S1600000),
    binary main_v1 main_v30 main_v31 (cmpi .slt),
    nullary main_c_5 (constantI S_ 32 100000#32),
    unary main_c_5 main_v32 (broadcastInDim S1600000 ![] bcast_S_S1600000),
    binary main_v1 main_v32 main_v33 addi,
    ternary main_v31 main_v33 main_v1 main_v34 select,
    unary main_v34 main_v35 (broadcastInDim S1600000x1 ![0] bcast_S1600000_S1600000x1_0),
    binary main_v29 main_v35 main_v36 (fun x i => Host.gather gather_S100000x128_S1600000x1_S1600000x128_1_0_n_n_0_1_1128 x i),
    nullary main_cst_6 (constant S_ .f32 0x00000000#32),
    unary main_cst_6 main_v37 (broadcastInDim S100000x128 ![] bcast_S_S100000x128),
    unary main_v3 main_v38 (broadcastInDim S1600000x1 ![0] bcast_S1600000_S1600000x1_0),
    ternary main_v37 main_v38 main_v36 main_v39 (fun x i u => Host.scatterAdd scatter_S100000x128_S1600000x1_S1600000x128_1_0_0_1 x i u),
    nullary main_cst_7 (constant S_ .f32 0x3F800000#32),
    unary main_cst_7 main_v40 (broadcastInDim S1600000 ![] bcast_S_S1600000),
    nullary main_cst_8 (constant S_ .f32 0x00000000#32),
    unary main_cst_8 main_v41 (broadcastInDim S100000 ![] bcast_S_S100000),
    unary main_v3 main_v42 (broadcastInDim S1600000x1 ![0] bcast_S1600000_S1600000x1_0),
    ternary main_v41 main_v42 main_v40 main_v43 (fun x i u => Host.scatterAdd scatter_S100000_S1600000x1_S1600000_n_0_0_1 x i u),
    nullary main_cst_9 (constant S_ .f32 0x3F800000#32),
    unary main_cst_9 main_v44 (broadcastInDim S100000 ![] bcast_S_S100000),
    binary main_v43 main_v44 main_v45 maximumf,
    unary main_v45 main_v46 (broadcastInDim S100000x1 ![0] bcast_S100000_S100000x1_0),
    unary main_v46 main_v47 (broadcastInDim S100000x128 ![0, 1] bcast_S100000x1_S100000x128_0_1),
    binary main_v39 main_v47 main_v48 Host.divf,
    binary main_v48 main_arg5 main_v49 (fun l r => Host.dotGeneral dot_S100000x128_S128x16_S100000x16_1_0_0_1_n_n none l r),
    unary main_arg6 main_v50 (broadcastInDim S1x16 ![1] bcast_S16_S1x16_1),
    unary main_v50 main_v51 (broadcastInDim S100000x16 ![0, 1] bcast_S1x16_S100000x16_0_1),
    binary main_v49 main_v51 main_v52 addf,
    binary main_v29 main_arg7 main_v53 (fun l r => Host.dotGeneral dot_S100000x128_S128x16_S100000x16_1_0_0_1_n_n none l r),
    binary main_v52 main_v53 main_v54 addf ]

/-- The fourth stretch: the logarithm of the softmax's first eight operations, to the rows less their maxima. -/
def opsD1 : List (HloOp τ sig (Elt F)) :=
  [ TRef.nullary main_call1.cst (constant S_ .f32 0xFF800000#32),
    TRef.binary (.of main_v54 : TRef sig ⟨S100000x16, .f32⟩) main_call1.cst main_call1.v0 (fun x v => Host.reduce FloatOps.maximumf x v reducesTo_S100000x16_S100000_d1 h_S_),
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x16 ![0, 1] bcast_S100000x1_S100000x16_0_1),
    TRef.binary (.of main_v54 : TRef sig ⟨S100000x16, .f32⟩) main_call1.v4 main_call1.v5 subf ]

/-- The fifth stretch: the logarithm of the softmax's last seven operations, from the rows less their maxima. -/
def opsD2 : List (HloOp τ sig (Elt F)) :=
  [ TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x16_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x16 ![0, 1] bcast_S100000x1_S100000x16_0_1),
    TRef.binary main_call1.v5 main_call1.v10 main_call1.v11 subf ]

/-- The line is its five stretches one after the other. -/
theorem ops_eq : (ops : List (HloOp τ sig (Elt F))) = opsA ++ (opsB ++ (opsC ++ (opsD1 ++ opsD2))) := rfl

/-- Contents after two lines run one after the other: the second line's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

theorem after_ops (V : Valuation τ sig (Elt F)) :
    after ops V = after opsD2 (after opsD1 (after opsC (after opsB (after opsA V)))) := by
  rw [ops_eq, after_append', after_append', after_append', after_append']

/-- A buffer that no operation of a literal line writes keeps its contents: each operation writes one buffer, and the
    buffer read differs from each of them by computation. -/
local macro "keep_of_writes" l:ident : tactic =>
  `(tactic| (refine after_of_forall_not_mem _ _ (List.forall_iff_forall_mem.mp ?_)
             simp only [$l:ident, List.Forall, nullary_writes, unary_writes, binary_writes, ternary_writes, reshape_writes,
               Finset.mem_singleton]
             repeat' apply And.intro
             all_goals exact devRef_ne_of_ne (by decide)))

/-! ## The first stretch -/

set_option maxRecDepth 8192 in
set_option maxHeartbeats 4000000 in
theorem A_v28 (V : Valuation τ sig (Elt F)) :
    after opsA V (main_v28 : DevRef τ sig) = Term.lin1 (Term.agg (V (main_arg0 : DevRef τ sig)) (Term.srcRow (V (main_arg1 : DevRef τ sig))) (Term.dstRow (V (main_arg1 : DevRef τ sig)))) (V (main_arg0 : DevRef τ sig))
          (V (main_arg2 : DevRef τ sig)) (V (main_arg3 : DevRef τ sig)) (V (main_arg4 : DevRef τ sig)) := by
  unfold opsA
  after_results_simp
  rfl

set_option maxRecDepth 8192 in
set_option maxHeartbeats 4000000 in
theorem A_v1 (V : Valuation τ sig (Elt F)) :
    after opsA V (main_v1 : DevRef τ sig) = Term.srcRow (V (main_arg1 : DevRef τ sig)) := by
  unfold opsA
  after_results_simp
  rfl

set_option maxRecDepth 8192 in
set_option maxHeartbeats 4000000 in
theorem A_v3 (V : Valuation τ sig (Elt F)) :
    after opsA V (main_v3 : DevRef τ sig) = Term.dstRow (V (main_arg1 : DevRef τ sig)) := by
  unfold opsA
  after_results_simp
  rfl

set_option maxRecDepth 8192 in
theorem A_arg5 (V : Valuation τ sig (Elt F)) :
    after opsA V (main_arg5 : DevRef τ sig) = V (main_arg5 : DevRef τ sig) := by
  keep_of_writes opsA

set_option maxRecDepth 8192 in
theorem A_arg6 (V : Valuation τ sig (Elt F)) :
    after opsA V (main_arg6 : DevRef τ sig) = V (main_arg6 : DevRef τ sig) := by
  keep_of_writes opsA

set_option maxRecDepth 8192 in
theorem A_arg7 (V : Valuation τ sig (Elt F)) :
    after opsA V (main_arg7 : DevRef τ sig) = V (main_arg7 : DevRef τ sig) := by
  keep_of_writes opsA

/-! ## The second stretch -/

set_option maxRecDepth 8192 in
set_option maxHeartbeats 4000000 in
theorem B_v29 (V : Valuation τ sig (Elt F)) :
    after opsB V (main_v29 : DevRef τ sig) = Term.elu (V (main_v28 : DevRef τ sig)) := by
  unfold opsB
  after_results_simp
  rfl

set_option maxRecDepth 8192 in
theorem B_v1 (V : Valuation τ sig (Elt F)) :
    after opsB V (main_v1 : DevRef τ sig) = V (main_v1 : DevRef τ sig) := by
  keep_of_writes opsB

set_option maxRecDepth 8192 in
theorem B_v3 (V : Valuation τ sig (Elt F)) :
    after opsB V (main_v3 : DevRef τ sig) = V (main_v3 : DevRef τ sig) := by
  keep_of_writes opsB

set_option maxRecDepth 8192 in
theorem B_arg5 (V : Valuation τ sig (Elt F)) :
    after opsB V (main_arg5 : DevRef τ sig) = V (main_arg5 : DevRef τ sig) := by
  keep_of_writes opsB

set_option maxRecDepth 8192 in
theorem B_arg6 (V : Valuation τ sig (Elt F)) :
    after opsB V (main_arg6 : DevRef τ sig) = V (main_arg6 : DevRef τ sig) := by
  keep_of_writes opsB

set_option maxRecDepth 8192 in
theorem B_arg7 (V : Valuation τ sig (Elt F)) :
    after opsB V (main_arg7 : DevRef τ sig) = V (main_arg7 : DevRef τ sig) := by
  keep_of_writes opsB

/-! ## The third stretch -/

set_option maxRecDepth 8192 in
set_option maxHeartbeats 4000000 in
theorem C_v54 (V : Valuation τ sig (Elt F)) :
    after opsC V (main_v54 : DevRef τ sig) = Term.lin2 (Term.agg (V (main_v29 : DevRef τ sig)) (V (main_v1 : DevRef τ sig)) (V (main_v3 : DevRef τ sig))) (V (main_v29 : DevRef τ sig))
          (V (main_arg5 : DevRef τ sig)) (V (main_arg6 : DevRef τ sig)) (V (main_arg7 : DevRef τ sig)) := by
  unfold opsC
  after_results_simp
  rfl

/-! ## The fourth and fifth stretches

The called function's operations carry their values through typed references: a cast to the buffer's type around each
result and one back around each operand. Here the casts are taken away before the two sides are compared (a pair on
one buffer cancels whatever the buffer; the one at a literal buffer is the identity by computation), so that the
comparison never looks inside the row reductions. -/

/-- The logarithm of the softmax from the rows less their maxima: the rows less the logarithm of their summed
    exponentials. -/
def lseTail (s : FVec F S100000x16 .f32) : FVec F S100000x16 .f32 :=
  subf s
    (broadcastInDim S100000x16 ![0, 1] bcast_S100000x1_S100000x16_0_1
      (Host.log
        (broadcastInDim S100000x1 ![0] bcast_S100000_S100000x1_0
          (Host.reduceAdd (Host.exp s) (constant (F := F) S_ .f32 0x00000000#32) reducesTo_S100000x16_S100000_d1 h_S_))))

/-- A typed reference's two casts cancel. -/
theorem ofBuf_toBuf {T : BufTy} (x : TRef sig T) (v : T.Contents (Elt F)) : x.ofBuf (x.toBuf v) = v := by
  simp only [TRef.ofBuf, TRef.toBuf, cast_cast, cast_eq]

/-- At the literal buffer of the second layer's output the cast is the identity. -/
theorem ofBuf_v54 (v : (⟨S100000x16, .f32⟩ : BufTy).Contents (Elt F)) :
    (TRef.of main_v54 rfl : TRef sig ⟨S100000x16, .f32⟩).ofBuf v = v := rfl

/-- At the literal buffer of the rows less their maxima the cast is the identity. -/
theorem toBuf_v5 (v : (⟨S100000x16, .f32⟩ : BufTy).Contents (Elt F)) :
    main_call1.v5.toBuf v = v := rfl

set_option maxRecDepth 8192 in
theorem D1_v5 (V : Valuation τ sig (Elt F)) :
    after opsD1 V (main_call1_v5 : DevRef τ sig) = Term.shifted (V (main_v54 : DevRef τ sig)) := by
  unfold opsD1
  after_results_simp
  simp only [ofBuf_toBuf]
  rw [toBuf_v5]
  simp only [ofBuf_v54]
  rfl

set_option maxRecDepth 8192 in
theorem D2_v55 (V : Valuation τ sig (Elt F)) :
    after opsD2 V (main_v55 : DevRef τ sig) = lseTail (V (main_call1_v5 : DevRef τ sig)) := by
  unfold opsD2
  after_results_simp
  rfl

/-! ## The whole line -/

/-- The fold at the result buffer is the composed term: the five stretches' results read one after the other, the
    buffers a later stretch reads kept by the stretches between; what remains is the definitions' unfolding. -/
theorem out_eq (V : Valuation τ sig (Elt F)) :
    after ops V (main_v55 : DevRef τ sig)
      = Term.refOut (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [after_ops, D2_v55, D1_v5, C_v54, B_v29, B_v1, B_v3, B_arg5, B_arg6, B_arg7, A_v28, A_v1, A_v3, A_arg5, A_arg6, A_arg7]
  rfl

set_option maxRecDepth 8192 in
/-- No operation writes argument 0. -/
theorem arg0_eq (V : Valuation τ sig (Elt F)) :
    after ops V (main_arg0 : DevRef τ sig) = V (main_arg0 : DevRef τ sig) := by
  keep_of_writes ops

set_option maxRecDepth 8192 in
/-- No operation writes argument 1. -/
theorem arg1_eq (V : Valuation τ sig (Elt F)) :
    after ops V (main_arg1 : DevRef τ sig) = V (main_arg1 : DevRef τ sig) := by
  keep_of_writes ops

set_option maxRecDepth 8192 in
/-- No operation writes argument 2. -/
theorem arg2_eq (V : Valuation τ sig (Elt F)) :
    after ops V (main_arg2 : DevRef τ sig) = V (main_arg2 : DevRef τ sig) := by
  keep_of_writes ops

set_option maxRecDepth 8192 in
/-- No operation writes argument 3. -/
theorem arg3_eq (V : Valuation τ sig (Elt F)) :
    after ops V (main_arg3 : DevRef τ sig) = V (main_arg3 : DevRef τ sig) := by
  keep_of_writes ops

set_option maxRecDepth 8192 in
/-- No operation writes argument 4. -/
theorem arg4_eq (V : Valuation τ sig (Elt F)) :
    after ops V (main_arg4 : DevRef τ sig) = V (main_arg4 : DevRef τ sig) := by
  keep_of_writes ops

set_option maxRecDepth 8192 in
/-- No operation writes argument 5. -/
theorem arg5_eq (V : Valuation τ sig (Elt F)) :
    after ops V (main_arg5 : DevRef τ sig) = V (main_arg5 : DevRef τ sig) := by
  keep_of_writes ops

set_option maxRecDepth 8192 in
/-- No operation writes argument 6. -/
theorem arg6_eq (V : Valuation τ sig (Elt F)) :
    after ops V (main_arg6 : DevRef τ sig) = V (main_arg6 : DevRef τ sig) := by
  keep_of_writes ops

set_option maxRecDepth 8192 in
/-- No operation writes argument 7. -/
theorem arg7_eq (V : Valuation τ sig (Elt F)) :
    after ops V (main_arg7 : DevRef τ sig) = V (main_arg7 : DevRef τ sig) := by
  keep_of_writes ops

end Fold

-- the line's ninety-six operations each determine their result: one case per operation
set_option maxRecDepth 8192 in
set_option maxHeartbeats 4000000 in
/-- The reference runs, its result is `Term.refOut` of the launch contents of its arguments, and the arguments end as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v55)
        = Term.refOut (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨(h c main_v55).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_seq scopedRefs_eq scopedSems_eq defs main (fun _ => ops) main_eq (fun _ => ops_sub) m ρ)

end Cert.ReferenceIdeal.RefRun

end
-- ==== Proof.RefValue.lean ====
/-
  The reference's two layers, read index by index at the extended reals, are the layers of `Cert.Sage`.

  Every operation of the host's terms is read at an index (r, q): the elementwise ones entry by entry, the splats and
  the row and column broadcasts at the entry they repeat, the two products as sums over the inner index, the row
  maximum as a fold of max over the row, the row sum as a sum over the row.  The first layer then needs only that the
  three summands of the linear map may be regrouped (the extended reals' addition is commutative and associative) and
  that the word of the float one is 1; the second that the fold of max from a value is at least that value and that
  the zero word is 0.
-/
import proofs.«106515_j2319282340413_1_alg».proof.Proof.RefTerm
import proofs.«106515_j2319282340413_1_alg».proof.Proof.Spec
import proofs.«106515_j2319282340413_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Facts₀

variable [Facts]

/-! ## Words -/

/-- The word of the float one is the extended real one. -/
theorem ofBits_one_f32 : Ideal.ofBits .f32 0x3F800000#32 = 1 := by
  simp [Ideal.ofBits, Ideal.ieee]
  rw [← EReal.coe_mul]
  norm_num

/-! ## Broadcasts read at an index -/

/-- A splat of a scalar constant reads the constant's value everywhere. -/
theorem splat_apply {t : Shape} (h : S_.BroadcastsInDim t (![] : Fin 0 → Fin t.rank)) (w : BitVec 32) (j : t.Idx) :
    broadcastInDim t ![] h (constant (F := Ideal) S_ .f32 w) j = Ideal.ofBits .f32 w := rfl

/-- A vector laid out as one row, [c] → [1, c] on axis 1: entry (0, q) is entry q. -/
theorem row_of_vec_apply {c : Nat} (h : (⟨1, ![c]⟩ : Shape).BroadcastsInDim ⟨2, ![1, c]⟩ ![1])
    (v : (⟨1, ![c]⟩ : Shape).Idx → EReal) (z : Fin 1) (q : Fin c) :
    broadcastInDim ⟨2, ![1, c]⟩ ![1] h v (ix2 z q) = v (ix1 q) :=
  broadcastInDim_apply _ h v (ix2 z q) (ix1 q) fun a => by
    match a with
    | ⟨0, _⟩ =>
      show q.val = if c = 1 then 0 else q.val
      have := q.isLt
      split <;> omega

/-- One row repeated over the rows, [1, c] → [n, c] on axes 0, 1: entry (r, q) is entry (0, q). -/
theorem rows_of_row_apply {n c : Nat} (h : (⟨2, ![1, c]⟩ : Shape).BroadcastsInDim ⟨2, ![n, c]⟩ ![0, 1])
    (v : (⟨2, ![1, c]⟩ : Shape).Idx → EReal) (r : Fin n) (q : Fin c) :
    broadcastInDim ⟨2, ![n, c]⟩ ![0, 1] h v (ix2 r q) = v (ix2 (0 : Fin 1) q) :=
  broadcastInDim_apply _ h v (ix2 r q) (ix2 (0 : Fin 1) q) fun a => by
    match a with
    | ⟨0, _⟩ => rfl
    | ⟨1, _⟩ =>
      show q.val = if c = 1 then 0 else q.val
      have := q.isLt
      split <;> omega

/-- A vector laid out as one column, [n] → [n, 1] on axis 0: entry (r, 0) is entry r. -/
theorem col_of_vec_apply {n : Nat} (h : (⟨1, ![n]⟩ : Shape).BroadcastsInDim ⟨2, ![n, 1]⟩ ![0])
    (v : (⟨1, ![n]⟩ : Shape).Idx → EReal) (r : Fin n) (z : Fin 1) :
    broadcastInDim ⟨2, ![n, 1]⟩ ![0] h v (ix2 r z) = v (ix1 r) :=
  broadcastInDim_apply _ h v (ix2 r z) (ix1 r) fun a => by
    match a with
    | ⟨0, _⟩ =>
      show r.val = if n = 1 then 0 else r.val
      have := r.isLt
      split <;> omega

/-- One column repeated over the columns, [n, 1] → [n, c] on axes 0, 1: entry (r, q) is entry (r, 0). -/
theorem cols_of_col_apply {n c : Nat} (h : (⟨2, ![n, 1]⟩ : Shape).BroadcastsInDim ⟨2, ![n, c]⟩ ![0, 1])
    (v : (⟨2, ![n, 1]⟩ : Shape).Idx → EReal) (r : Fin n) (q : Fin c) :
    broadcastInDim ⟨2, ![n, c]⟩ ![0, 1] h v (ix2 r q) = v (ix2 r (0 : Fin 1)) :=
  broadcastInDim_apply _ h v (ix2 r q) (ix2 r (0 : Fin 1)) fun a => by
    match a with
    | ⟨0, _⟩ =>
      show r.val = if n = 1 then 0 else r.val
      have := r.isLt
      split <;> omega
    | ⟨1, _⟩ => rfl

/-! ## The two products, the row maximum and the row sum read at an index -/

/-- The host's product of the first layer at (r, q): the sum over the inner index. -/
theorem dot1_apply (A : FVec Ideal S100000x128 .f32) (B : FVec Ideal S128x128 .f32) (r : Fin 100000) (q : Fin 128) :
    Host.dotGeneral dot_S100000x128_S128x128_S100000x128_1_0_0_1_n_n none A B (ix2 r q)
      = ∑ k : Fin 128, A (ix2 r k) * B (ix2 k q) :=
  Cert.PlainDot.dotGeneral_apply (M := 100000) (K := 128) (N := 128) none .single A B (ix2 r q)

/-- The host's product of the second layer at (r, q): the sum over the inner index. -/
theorem dot2_apply (A : FVec Ideal S100000x128 .f32) (B : FVec Ideal S128x16 .f32) (r : Fin 100000) (q : Fin 16) :
    Host.dotGeneral dot_S100000x128_S128x16_S100000x16_1_0_0_1_n_n none A B (ix2 r q)
      = ∑ k : Fin 128, A (ix2 r k) * B (ix2 k q) :=
  Cert.PlainDot.dotGeneral_apply (M := 100000) (K := 128) (N := 16) none .single A B (ix2 r q)

/-- The shape fact of a reduction along the rows, in the form that names the inserted index. -/
theorem reduces_rows : S100000x16.Reduces [1] S100000 := by decide

/-- The index over row r with column q inserted is (r, q). -/
theorem lift_rows (r : Fin 100000) (q : Fin 16) : reduces_rows.lift (ix1 r) q = ix2 r q :=
  funext fun c => Fin.ext (by
    match c with
    | ⟨0, _⟩ => rfl
    | ⟨1, _⟩ => rfl)

/-- The host's row maximum at r: the fold of max over the row from the value of the initial word. -/
theorem reduceMax_apply (l : FVec Ideal S100000x16 .f32) (r : Fin 100000) :
    Host.reduce FloatOps.maximumf l (constant (F := Ideal) S_ .f32 0xFF800000#32) reducesTo_S100000x16_S100000_d1 h_S_ (ix1 r)
      = Cert.Sage.rowMax l r := by
  rw [Host.reduce_eq_fold_single FloatOps.maximumf l _ reducesTo_S100000x16_S100000_d1 reduces_rows h_S_ (ix1 r)]
  unfold Cert.Sage.rowMax
  have hf : (l ∘ reduces_rows.lift (ix1 r)) = fun q : Fin 16 => l (ix2 r q) := funext fun q => congrArg l (lift_rows r q)
  rw [hf]
  rfl

/-- The host's row sum at r from the zero word: the sum over the row. -/
theorem reduceAdd_apply (e : FVec Ideal S100000x16 .f32) (r : Fin 100000) :
    Host.reduceAdd e (constant (F := Ideal) S_ .f32 0x00000000#32) reducesTo_S100000x16_S100000_d1 h_S_ (ix1 r)
      = ∑ q : Fin 16, e (ix2 r q) := by
  show Ideal.hostReduceAdd reducesTo_S100000x16_S100000_d1 e (Ideal.ofBits .f32 0x00000000#32) (ix1 r) = _
  rw [Ideal.hostReduceAdd_single reducesTo_S100000x16_S100000_d1 reduces_rows, Ideal.ofBits_zero_f32, zero_add]
  exact Finset.sum_congr rfl fun q _ => congrArg e (lift_rows r q)

/-- The fold of max from a value is at least that value, so taking the maximum with it once more changes nothing. -/
theorem max_rowMax (l : Cert.Sage.Arr 100000 16) (r : Fin 100000) :
    max Cert.Sage.negInfW (Cert.Sage.rowMax l r) = Cert.Sage.rowMax l r :=
  max_eq_right ((Finset.le_fold_max _).2 (Or.inl le_rfl))

/-! ## The linear maps -/

/-- The host's first linear map at (r, q) is the pre-activation there: the bias moves past the root product. -/
theorem lin1_apply (a x : FVec Ideal S100000x128 .f32) (Wl : FVec Ideal S128x128 .f32) (b : FVec Ideal S128 .f32)
    (Wr : FVec Ideal S128x128 .f32) (r : Fin 100000) (q : Fin 128) :
    Term.lin1 (F := Ideal) a x Wl b Wr (ix2 r q) = Cert.Sage.lin a x Wl Wr b (ix2 r q) := by
  unfold Term.lin1
  rw [addf_apply, addf_apply, dot1_apply, dot1_apply, rows_of_row_apply, row_of_vec_apply]
  exact add_right_comm _ _ _

/-- The host's second linear map at (r, q) is the pre-activation there. -/
theorem lin2_apply (a h : FVec Ideal S100000x128 .f32) (Wl : FVec Ideal S128x16 .f32) (b : FVec Ideal S16 .f32)
    (Wr : FVec Ideal S128x16 .f32) (r : Fin 100000) (q : Fin 16) :
    Term.lin2 (F := Ideal) a h Wl b Wr (ix2 r q) = Cert.Sage.lin a h Wl Wr b (ix2 r q) := by
  unfold Term.lin2
  rw [addf_apply, addf_apply, dot2_apply, dot2_apply, rows_of_row_apply, row_of_vec_apply]
  exact add_right_comm _ _ _

/-! ## The exponential linear unit -/

/-- The host's exponential linear unit at an index: where the entry exceeds the zero word's value both sides are the
    entry; elsewhere the inner select keeps the entry and one times (exp − 1) is exp less the one word's value. -/
theorem elu_apply (t : FVec Ideal S100000x128 .f32) (j : S100000x128.Idx) :
    Term.elu (F := Ideal) t j = Cert.Sage.elu1 (t j) := by
  unfold Term.elu Cert.Sage.elu1
  rw [select_apply, mulf_apply, cmpf_apply, splat_apply, splat_apply]
  show Scalar.select (Ideal.cmp .ogt (t j) Cert.Sage.zeroW) (t j)
      (Ideal.ofBits .f32 0x3F800000#32
        * (Ideal.exp (Scalar.select (Ideal.cmp .ogt (t j) Cert.Sage.zeroW) Cert.Sage.zeroW (t j)) - 1))
    = Scalar.select (Ideal.cmp .ogt (t j) Cert.Sage.zeroW) (t j) (Ideal.exp (t j) - Cert.Sage.oneW)
  unfold Scalar.select Cert.Sage.oneW
  by_cases hc : Ideal.cmp .ogt (t j) Cert.Sage.zeroW = 1
  · rw [if_pos hc, if_pos hc]
  · rw [if_neg hc, if_neg hc, if_neg hc, ofBits_one_f32, one_mul]

/-! ## The logarithm of the softmax -/

/-- A row's entry less the row's maximum, as the host spells it, at (r, q). -/
theorem shifted_apply (l : FVec Ideal S100000x16 .f32) (r : Fin 100000) (q : Fin 16) :
    Term.shifted (F := Ideal) l (ix2 r q) = l (ix2 r q) - Cert.Sage.rowMax l r := by
  unfold Term.shifted
  rw [subf_apply, cols_of_col_apply, col_of_vec_apply, maximumf_apply, splat_apply, reduceMax_apply]
  exact congrArg (l (ix2 r q) - ·) (max_rowMax l r)

/-- The host's logarithm at an index is the logarithm of the entry. -/
theorem hostLog_apply {s : Shape} (x : FVec Ideal s .f32) (i : s.Idx) : Host.log x i = Ideal.log (x i) := rfl

/-- The host's exponential at an index is the exponential of the entry. -/
theorem hostExp_apply {s : Shape} (x : FVec Ideal s .f32) (i : s.Idx) : Host.exp x i = Ideal.exp (x i) := rfl

/-- The specification's log-softmax at (r, q), its row written as r. -/
theorem spec_logSoftmax_apply (l : Cert.Sage.Arr 100000 16) (r : Fin 100000) (q : Fin 16) :
    Cert.Sage.logSoftmax l (ix2 r q)
      = (l (ix2 r q) - Cert.Sage.rowMax l r) - Ideal.log (∑ q' : Fin 16, Ideal.exp (l (ix2 r q') - Cert.Sage.rowMax l r)) := rfl

/-- The host's log-softmax at (r, q). -/
theorem logSoftmax_apply (l : FVec Ideal S100000x16 .f32) (r : Fin 100000) (q : Fin 16) :
    Term.logSoftmax (F := Ideal) l (ix2 r q) = Cert.Sage.logSoftmax l (ix2 r q) := by
  unfold Term.logSoftmax
  rw [subf_apply, shifted_apply, cols_of_col_apply, hostLog_apply, col_of_vec_apply, reduceAdd_apply, spec_logSoftmax_apply]
  have hs : (∑ q' : Fin 16, Host.exp (Term.shifted (F := Ideal) l) (ix2 r q'))
      = ∑ q' : Fin 16, Ideal.exp (l (ix2 r q') - Cert.Sage.rowMax l r) :=
    Finset.sum_congr rfl fun q' _ => (hostExp_apply _ _).trans (congrArg Ideal.exp (shifted_apply l r q'))
  rw [hs]

/-- The host's exponential linear unit of the host's first linear map is the first layer. -/
theorem elu_lin1_eq (a x : FVec Ideal S100000x128 .f32) (Wl : FVec Ideal S128x128 .f32) (b : FVec Ideal S128 .f32)
    (Wr : FVec Ideal S128x128 .f32) :
    Term.elu (F := Ideal) (Term.lin1 (F := Ideal) a x Wl b Wr) = Cert.Sage.layer1 a x Wl Wr b := by
  funext j
  obtain ⟨r, q, rfl⟩ : ∃ (r : Fin 100000) (q : Fin 128), j = ix2 r q := ⟨j 0, j 1, eq_ix2 j⟩
  rw [elu_apply, lin1_apply]
  rfl

/-- The host's log-softmax of the host's second linear map is the second layer. -/
theorem logSoftmax_lin2_eq (a h : FVec Ideal S100000x128 .f32) (Wl : FVec Ideal S128x16 .f32) (b : FVec Ideal S16 .f32)
    (Wr : FVec Ideal S128x16 .f32) :
    Term.logSoftmax (F := Ideal) (Term.lin2 (F := Ideal) a h Wl b Wr) = Cert.Sage.layer2 a h Wl Wr b := by
  have hl : Term.lin2 (F := Ideal) a h Wl b Wr = Cert.Sage.lin a h Wl Wr b := by
    funext j
    obtain ⟨r, q, rfl⟩ : ∃ (r : Fin 100000) (q : Fin 16), j = ix2 r q := ⟨j 0, j 1, eq_ix2 j⟩
    exact lin2_apply a h Wl b Wr r q
  rw [hl]
  funext j
  obtain ⟨r, q, rfl⟩ : ∃ (r : Fin 100000) (q : Fin 16), j = ix2 r q := ⟨j 0, j 1, eq_ix2 j⟩
  exact logSoftmax_apply _ r q

end Cert.ReferenceIdeal.RefValue

end
-- ==== Proof.lean ====
/-
  The certificate of a two-layer graph network with mean aggregation: the kernel program (host gathers and
  scatter-adds around two row-tiled kernels: linear maps plus an exponential linear unit, then linear maps plus the
  logarithm of a softmax) against the plain reference.

  Frames: the kernel programs' are the generated ones; the reference's is its run with the result dropped.
  The idealization rewrote nothing, so it is preserved trivially.
  Values at the extended reals: after the kernel program's run the result array holds `KValue.out`: the second layer
  (`Cert.Sage.layer2`) of the mean-aggregated hidden features and the hidden features, the hidden features the first
  layer of the mean-aggregated node features and the node features.  The reference's result term is the same
  function: its mean aggregation is the kernel program's, operation for operation; its linear maps add the same three
  summands in another order (addition of extended reals is commutative and associative); its exponential linear unit
  multiplies by one and guards the exponential's argument, which changes nothing; its softmax takes the row maximum
  once more against minus infinity, which changes nothing.
-/
import proofs.«106515_j2319282340413_1_alg».proof.Defs
import proofs.«106515_j2319282340413_1_alg».proof.Proof.Gen.Kernel
import proofs.«106515_j2319282340413_1_alg».proof.Proof.Gen.Kernel.Frame
import proofs.«106515_j2319282340413_1_alg».proof.Proof.Gen.KernelIdeal
import proofs.«106515_j2319282340413_1_alg».proof.Proof.Gen.KernelIdeal.Frame
import proofs.«106515_j2319282340413_1_alg».proof.Proof.Gen.ReferenceIdeal
import proofs.«106515_j2319282340413_1_alg».proof.Proof.Gen.Pre_finite_inputs
import proofs.«106515_j2319282340413_1_alg».proof.Proof.KValue
import proofs.«106515_j2319282340413_1_alg».proof.Proof.RefRun
import proofs.«106515_j2319282340413_1_alg».proof.Proof.RefValue
import Idealize.ShloMosaic.Adequacy
import Idealize.ShloMosaic.Init

noncomputable section

namespace Cert.Proof

open Idealize.ShloMosaic Idealize.SL.Sem

/-- The two programs take the source row of the edge list by the same operations. -/
theorem srcRow_eq (ei : IVec Cert.ReferenceIdeal.S2x1600000 32) :
    Cert.ReferenceIdeal.Term.srcRow ei = Cert.KernelIdeal.Term.srcRow ei := rfl

/-- The two programs take the destination row of the edge list by the same operations. -/
theorem dstRow_eq (ei : IVec Cert.ReferenceIdeal.S2x1600000 32) :
    Cert.ReferenceIdeal.Term.dstRow ei = Cert.KernelIdeal.Term.dstRow ei := rfl

/-- The two programs aggregate over the incoming edges by the same operations. -/
theorem agg_eq (x : FVec Ideal Cert.ReferenceIdeal.S100000x128 .f32) (s d : IVec Cert.ReferenceIdeal.S1600000 32) :
    Cert.ReferenceIdeal.Term.agg (F := Ideal) x s d = Cert.KernelIdeal.Term.agg (F := Ideal) x s d := rfl

/-- The reference's result term is the kernel program's result function of the same arrays. -/
theorem refOut_eq (x : FVec Ideal Cert.ReferenceIdeal.S100000x128 .f32) (ei : IVec Cert.ReferenceIdeal.S2x1600000 32)
    (W1l : FVec Ideal Cert.ReferenceIdeal.S128x128 .f32) (b1 : FVec Ideal Cert.ReferenceIdeal.S128 .f32)
    (W1r : FVec Ideal Cert.ReferenceIdeal.S128x128 .f32) (W2l : FVec Ideal Cert.ReferenceIdeal.S128x16 .f32)
    (b2 : FVec Ideal Cert.ReferenceIdeal.S16 .f32) (W2r : FVec Ideal Cert.ReferenceIdeal.S128x16 .f32) :
    Cert.ReferenceIdeal.Term.refOut (F := Ideal) x ei W1l b1 W1r W2l b2 W2r
      = Cert.Sage.layer2
          (Cert.KernelIdeal.Term.agg (F := Ideal)
            (Cert.Sage.layer1 (Cert.KernelIdeal.Term.agg (F := Ideal) x (Cert.KernelIdeal.Term.srcRow ei) (Cert.KernelIdeal.Term.dstRow ei)) x W1l W1r b1)
            (Cert.KernelIdeal.Term.srcRow ei) (Cert.KernelIdeal.Term.dstRow ei))
          (Cert.Sage.layer1 (Cert.KernelIdeal.Term.agg (F := Ideal) x (Cert.KernelIdeal.Term.srcRow ei) (Cert.KernelIdeal.Term.dstRow ei)) x W1l W1r b1)
          W2l W2r b2 := by
  unfold Cert.ReferenceIdeal.Term.refOut Cert.ReferenceIdeal.Term.hidden
  rw [Cert.ReferenceIdeal.RefValue.logSoftmax_lin2_eq, Cert.ReferenceIdeal.RefValue.elu_lin1_eq, agg_eq, agg_eq, srcRow_eq, dstRow_eq]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs run, and both result arrays hold `KValue.out` of the
    kernel program's arguments. -/
theorem algebraic : Cert.algebraic_KernelIdeal_ReferenceIdeal := by
  intro m ρ m' ρ' _ hagree
  refine ⟨fun c => Cert.KernelIdeal.KValue.out m c, Cert.KernelIdeal.KValue.run m ρ, ?_⟩
  refine (θ_run Cert.ReferenceIdeal.defs _ _).mono (fun r h c => ⟨(h c).1.trans ?_, (h c).2⟩)
    (Cert.ReferenceIdeal.RefRun.run (F := Ideal) m' ρ')
  obtain ⟨h0, h1, h2, h3, h4, h5, h6, h7⟩ := hagree c
  rw [h0, h1, h2, h3, h4, h5, h6, h7]
  exact refOut_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
